-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x64, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two whole-array functions the kernel's four grid-tiled calls compute, stated once over literal matrix sizes:
  the product of two matrices over the extended reals, and a row vector added to every row of a matrix (with and
  without the clamp at zero from below).
-/
import Idealize.ShloMosaic.PureOps.Ideal
import Idealize.ShloMosaic.Lib.ValueIdx

noncomputable section

open scoped BigOperators

namespace Cert.Spec

open Idealize.ShloMosaic Idealize.ShloMosaic.ValueIdx

/-- The product of an `R × K` matrix and a `K × C` matrix: entry (r, c) is the sum over k of x(r, k) · w(k, c). -/
def matProd {R K C : ℕ} (x : FVec Ideal ⟨2, ![R, K]⟩ .f32) (w : FVec Ideal ⟨2, ![K, C]⟩ .f32) :
    FVec Ideal ⟨2, ![R, C]⟩ .f32 :=
  fun i => ∑ k : Fin K, x (ix2 ⟨(i 0).val, (i 0).isLt⟩ k) * w (ix2 k ⟨(i 1).val, (i 1).isLt⟩)

theorem matProd_at {R K C : ℕ} (x : FVec Ideal ⟨2, ![R, K]⟩ .f32) (w : FVec Ideal ⟨2, ![K, C]⟩ .f32) (r : Fin R) (c : Fin C) :
    matProd x w (ix2 r c) = ∑ k : Fin K, x (ix2 r k) * w (ix2 k c) := rfl

/-- A one-row matrix added to every row of an `R × C` matrix: entry (r, c) is a(r, c) + b(0, c). -/
def addRow {R C : ℕ} (a : FVec Ideal ⟨2, ![R, C]⟩ .f32) (b : FVec Ideal ⟨2, ![1, C]⟩ .f32) : FVec Ideal ⟨2, ![R, C]⟩ .f32 :=
  fun i => a i + b (ix2 0 ⟨(i 1).val, (i 1).isLt⟩)

theorem addRow_at {R C : ℕ} (a : FVec Ideal ⟨2, ![R, C]⟩ .f32) (b : FVec Ideal ⟨2, ![1, C]⟩ .f32) (r : Fin R) (c : Fin C) :
    addRow a b (ix2 r c) = a (ix2 r c) + b (ix2 0 c) := rfl

/-- The same, then the larger of the entry and zero: entry (r, c) is max (a(r, c) + b(0, c)) 0. -/
def addRowClamp {R C : ℕ} (a : FVec Ideal ⟨2, ![R, C]⟩ .f32) (b : FVec Ideal ⟨2, ![1, C]⟩ .f32) : FVec Ideal ⟨2, ![R, C]⟩ .f32 :=
  fun i => max (a i + b (ix2 0 ⟨(i 1).val, (i 1).isLt⟩)) (Ideal.ofBits .f32 0x00000000#32)

theorem addRowClamp_at {R C : ℕ} (a : FVec Ideal ⟨2, ![R, C]⟩ .f32) (b : FVec Ideal ⟨2, ![1, C]⟩ .f32) (r : Fin R) (c : Fin C) :
    addRowClamp a b (ix2 r c) = max (a (ix2 r c) + b (ix2 0 c)) (Ideal.ofBits .f32 0x00000000#32) := rfl

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.RefLayers.lean ====
/-
  The reference, layer by layer. One layer of the network sends a node-feature matrix `h` to
  `scatter-add over the edges' targets of (norm(e) · h[source(e)])`, the edge list extended by one self loop per node and
  `norm` the symmetric degree normalisation; the whole reference is
  `layer(relu(layer(x · W1) + b1) · W2) + b2`. Here the two layers are named as functions of `h`, the reference's result is
  written over them, and the four dense steps are read at an entry: each matrix product is the sum over the shared axis,
  each bias step adds the bias's entry of the same column (and, in the first layer, takes the larger of that and zero).
-/
import proofs.«121211_j64527588655436_1_alg».proof.Proof.Gen.ReferenceIdeal.Read
import proofs.«121211_j64527588655436_1_alg».proof.Proof.Spec
import proofs.«121211_j64527588655436_1_alg».proof.Proof.LibDot

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

variable {F : FTy → Type} [FloatOps F]

/-- The first layer's propagation of a 128-column feature matrix `h`: gather the source rows, scale each by its edge's
    normalisation, add them up at the target rows. -/
def layer128 (x1 : (⟨S2x800000, .i32⟩ : BufTy).Contents (Elt F)) (x2 : (⟨S800000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (val_main_v43 (F := F)) (val_main_v44 (F := F) x1)
    (mulf (val_main_v41 (F := F) x1 x2)
      (Host.gather gather_S50000x128_S850000x1_S850000x128_1_0_n_n_0_1_1128 h (val_main_v39 (F := F) x1)))

/-- The second layer's propagation, of a 64-column feature matrix. -/
def layer64 (x1 : (⟨S2x800000, .i32⟩ : BufTy).Contents (Elt F)) (x2 : (⟨S800000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1 (val_main_v61 (F := F)) (val_main_v62 (F := F) x1)
    (mulf (val_main_v59 (F := F) x1 x2)
      (Host.gather gather_S50000x64_S850000x1_S850000x64_1_0_n_n_0_1_164 h (val_main_v57 (F := F) x1)))

/-- The reference's result over the two layers. -/
theorem result_layers (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x128, .f32⟩ : BufTy).Contents (Elt F))
    (x4 : (⟨S128, .f32⟩ : BufTy).Contents (Elt F)) (x5 : (⟨S128x64, .f32⟩ : BufTy).Contents (Elt F))
    (x6 : (⟨S64, .f32⟩ : BufTy).Contents (Elt F)) :
    val_main_v66 (F := F) x0 x1 x2 x3 x4 x5 x6 =
      addf (layer64 x1 x2 (Host.dotGeneral dot_S50000x128_S128x64_S50000x64_1_0_0_1_n_n none
        (maximumf (addf (layer128 x1 x2 (Host.dotGeneral dot_S50000x128_S128x128_S50000x128_1_0_0_1_n_n none x0 x3))
          (val_main_v47 (F := F) x4)) (val_main_call1_v0 (F := F))) x5)) (val_main_v65 (F := F) x6) := rfl

/-! ## The dense steps at an entry, over the extended reals -/

/-- The first product is the matrix product. -/
theorem dot128_eq (x : FVec Ideal S50000x128 .f32) (w : FVec Ideal S128x128 .f32) :
    Host.dotGeneral (F := Ideal) dot_S50000x128_S128x128_S50000x128_1_0_0_1_n_n none x w = Cert.Spec.matProd x w := by
  funext i
  obtain ⟨r, q, rfl⟩ : ∃ (r : Fin 50000) (q : Fin 128), i = ix2 r q := ⟨i 0, i 1, eq_ix2 i⟩
  rw [Cert.Spec.matProd_at]
  exact Cert.LibDot.dotGeneral_at dot_S50000x128_S128x128_S50000x128_1_0_0_1_n_n rfl rfl rfl rfl rfl rfl _ _ x w r q

/-- The second product is the matrix product. -/
theorem dot64_eq (x : FVec Ideal S50000x128 .f32) (w : FVec Ideal S128x64 .f32) :
    Host.dotGeneral (F := Ideal) dot_S50000x128_S128x64_S50000x64_1_0_0_1_n_n none x w = Cert.Spec.matProd x w := by
  funext i
  obtain ⟨r, q, rfl⟩ : ∃ (r : Fin 50000) (q : Fin 64), i = ix2 r q := ⟨i 0, i 1, eq_ix2 i⟩
  rw [Cert.Spec.matProd_at]
  exact Cert.LibDot.dotGeneral_at dot_S50000x128_S128x64_S50000x64_1_0_0_1_n_n rfl rfl rfl rfl rfl rfl _ _ x w r q

/-- The bias's row broadcast over the 50000 rows reads the bias row at the entry's column. -/
theorem bias128_row (x4 : (⟨S128, .f32⟩ : BufTy).Contents (Elt F)) (r : Fin 50000) (q : Fin 128) :
    val_main_v47 (F := F) x4 (ix2 r q) = val_main_v46 (F := F) x4 (ix2 0 q) := by
  rw [val_main_v47_apply]
  refine congrArg _ (funext fun a => ?_)
  match a with
  | ⟨0, _⟩ => rfl
  | ⟨1, _⟩ => rfl

theorem bias64_row (x6 : (⟨S64, .f32⟩ : BufTy).Contents (Elt F)) (r : Fin 50000) (q : Fin 64) :
    val_main_v65 (F := F) x6 (ix2 r q) = val_main_v64 (F := F) x6 (ix2 0 q) := by
  rw [val_main_v65_apply]
  refine congrArg _ (funext fun a => ?_)
  match a with
  | ⟨0, _⟩ => rfl
  | ⟨1, _⟩ => rfl

/-- The first layer's bias and clamp: entry (r, c) is max (a(r, c) + b1(c)) 0. -/
theorem bias_clamp_eq (a : (⟨S50000x128, .f32⟩ : BufTy).Contents (Elt Ideal)) (x4 : (⟨S128, .f32⟩ : BufTy).Contents (Elt Ideal)) :
    maximumf (addf a (val_main_v47 (F := Ideal) x4)) (val_main_call1_v0 (F := Ideal))
      = Cert.Spec.addRowClamp a (val_main_v46 (F := Ideal) x4) := by
  funext i
  obtain ⟨r, q, rfl⟩ : ∃ (r : Fin 50000) (q : Fin 128), i = ix2 r q := ⟨i 0, i 1, eq_ix2 i⟩
  rw [Cert.Spec.addRowClamp_at, maximumf_apply, addf_apply, bias128_row, val_main_call1_v0_apply, val_main_call1_cst_apply]
  rfl

/-- The second layer's bias: entry (r, c) is a(r, c) + b2(c). -/
theorem bias_eq (a : (⟨S50000x64, .f32⟩ : BufTy).Contents (Elt Ideal)) (x6 : (⟨S64, .f32⟩ : BufTy).Contents (Elt Ideal)) :
    addf a (val_main_v65 (F := Ideal) x6) = Cert.Spec.addRow a (val_main_v64 (F := Ideal) x6) := by
  funext i
  obtain ⟨r, q, rfl⟩ : ∃ (r : Fin 50000) (q : Fin 64), i = ix2 r q := ⟨i 0, i 1, eq_ix2 i⟩
  rw [Cert.Spec.addRow_at, addf_apply, bias64_row]

/-- The reference's result over the specification's dense steps. -/
theorem result_spec (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) :
    val_main_v66 (F := Ideal) x0 x1 x2 x3 x4 x5 x6 =
      Cert.Spec.addRow (layer64 x1 x2 (Cert.Spec.matProd
        (Cert.Spec.addRowClamp (layer128 x1 x2 (Cert.Spec.matProd x0 x3)) (val_main_v46 (F := Ideal) x4)) x5))
        (val_main_v64 (F := Ideal) x6) := by
  rw [result_layers, bias_eq, dot64_eq, bias_clamp_eq, dot128_eq]

end Cert.ReferenceIdeal.Layers

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.HostChain.lean ====
/-
  The host operations of the kernel's program between its four grid-tiled calls are, operation for operation, the
  reference's: the edge list extended by the self loops, the degree normalisation, and for each layer the gather of source
  rows, the scaling and the scatter-add at the target rows. Here each stretch of them is read back as the reference's own
  stage of the same name, from ANY contents of the buffers it reads; and a buffer that a stretch does not write is carried
  across it unchanged.
-/
import proofs.«121211_j64527588655436_1_alg».proof.Proof.Gen.KernelIdeal.Launch
import proofs.«121211_j64527588655436_1_alg».proof.Proof.RefLayers
import proofs.«121211_j64527588655436_1_alg».proof.Proof.LibKeep
import proofs.«121211_j64527588655436_1_alg».proof.Proof.LibCastBcast

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.LibKeep
open Cert.ReferenceIdeal.Read (val_main_v3 val_main_v6 val_main_v8 val_main_v13 val_main_v14 val_main_cst_2 val_main_v15
  val_main_v31 val_main_v46 val_main_v64)
open Cert.ReferenceIdeal.Layers (layer128 layer64)

variable {F : FTy → Type} [FloatOps F]

/-! ## The first stretch: the extended edge list, the extended weights, the degrees -/

section Stretch0
variable (X : Valuation τ sig (Elt F))

/-- The sources, with one self loop per node appended. -/
theorem sources (X : Valuation τ sig (Elt F)) :
    StableHlo.after hostOps0 X (Proc.devRef .tc main_v3) = val_main_v3 (F := F) (X (Proc.devRef .tc main_arg1)) := by
  simp only [hostOps0]
  after_results
  rfl

/-- The targets, with one self loop per node appended. -/
theorem targets (X : Valuation τ sig (Elt F)) :
    StableHlo.after hostOps0 X (Proc.devRef .tc main_v6) = val_main_v6 (F := F) (X (Proc.devRef .tc main_arg1)) := by
  simp only [hostOps0]
  after_results
  rfl

/-- The edge weights, with weight one per self loop appended. -/
theorem weights (X : Valuation τ sig (Elt F)) :
    StableHlo.after hostOps0 X (Proc.devRef .tc main_v8) = val_main_v8 (F := F) (X (Proc.devRef .tc main_arg2)) := by
  simp only [hostOps0]
  after_results
  rfl

/-- Which nodes have a positive weighted in-degree. -/
theorem degree_pos (X : Valuation τ sig (Elt F)) :
    StableHlo.after hostOps0 X (Proc.devRef .tc main_v13)
      = val_main_v13 (F := F) (X (Proc.devRef .tc main_arg1)) (X (Proc.devRef .tc main_arg2)) := by
  simp only [hostOps0]
  after_results
  rfl

/-- The reciprocal square roots of the degrees. -/
theorem degree_rsqrt (X : Valuation τ sig (Elt F)) :
    StableHlo.after hostOps0 X (Proc.devRef .tc main_v14)
      = val_main_v14 (F := F) (X (Proc.devRef .tc main_arg1)) (X (Proc.devRef .tc main_arg2)) := by
  simp only [hostOps0]
  after_results
  rfl

/-- The zero the normalisation takes where the degree is not positive. -/
theorem zero_fill (X : Valuation τ sig (Elt F)) :
    StableHlo.after hostOps0 X (Proc.devRef .tc main_cst_2) = val_main_cst_2 (F := F) := by
  simp only [hostOps0]
  after_results
  rfl

end Stretch0

/-! ## The second and third stretches: the normalisation of every edge -/

/-- The inverse square-root degrees, zero where the degree is not positive. -/
theorem inv_sqrt_degree (Y : Valuation τ sig (Elt F)) (x1 : (⟨Cert.ReferenceIdeal.S2x800000, .i32⟩ : BufTy).Contents (Elt F))
    (x2 : (⟨Cert.ReferenceIdeal.S800000, .f32⟩ : BufTy).Contents (Elt F))
    (hpos : Y (Proc.devRef .tc main_v13) = val_main_v13 (F := F) x1 x2)
    (hrs : Y (Proc.devRef .tc main_v14) = val_main_v14 (F := F) x1 x2)
    (hz : Y (Proc.devRef .tc main_cst_2) = val_main_cst_2 (F := F)) :
    StableHlo.after hostOps0_1 Y (Proc.devRef .tc main_v15) = val_main_v15 (F := F) x1 x2 := by
  simp only [hostOps0_1]
  after_results
  rw [hpos, hrs, hz]
  rfl

/-- Every edge's normalisation: the inverse square-root degree of its source, times its weight, times that of its
    target. -/
theorem edge_norm (Z : Valuation τ sig (Elt F)) (x1 : (⟨Cert.ReferenceIdeal.S2x800000, .i32⟩ : BufTy).Contents (Elt F))
    (x2 : (⟨Cert.ReferenceIdeal.S800000, .f32⟩ : BufTy).Contents (Elt F))
    (hd : Z (Proc.devRef .tc main_v15) = val_main_v15 (F := F) x1 x2)
    (hs : Z (Proc.devRef .tc main_v3) = val_main_v3 (F := F) x1)
    (ht : Z (Proc.devRef .tc main_v6) = val_main_v6 (F := F) x1)
    (hw : Z (Proc.devRef .tc main_v8) = val_main_v8 (F := F) x2) :
    StableHlo.after hostOps0_2 Z (Proc.devRef .tc main_v31) = val_main_v31 (F := F) x1 x2 := by
  simp only [hostOps0_2]
  after_results_simp
  rw [hd, hs, ht, hw]
  rfl

/-! ## Between the calls: one layer's propagation, and the bias as a one-row matrix -/

/-- The first layer's propagation of whatever the first call left. -/
theorem propagate128 (X : Valuation τ sig (Elt F)) (x1 : (⟨Cert.ReferenceIdeal.S2x800000, .i32⟩ : BufTy).Contents (Elt F))
    (x2 : (⟨Cert.ReferenceIdeal.S800000, .f32⟩ : BufTy).Contents (Elt F))
    (hs : X (Proc.devRef .tc main_v3) = val_main_v3 (F := F) x1)
    (ht : X (Proc.devRef .tc main_v6) = val_main_v6 (F := F) x1)
    (hn : X (Proc.devRef .tc main_v31) = val_main_v31 (F := F) x1 x2) :
    StableHlo.after hostOps1 X (Proc.devRef .tc main_v45) = layer128 (F := F) x1 x2 (X (Proc.devRef .tc main_v32)) := by
  simp only [hostOps1]
  after_results_simp
  rw [hs, ht, hn]
  rfl

/-- The first bias as a one-row matrix. -/
theorem bias_row128 (X : Valuation τ sig (Elt F)) :
    StableHlo.after hostOps1 X (Proc.devRef .tc main_v46) = val_main_v46 (F := F) (X (Proc.devRef .tc main_arg4)) := by
  simp only [hostOps1]
  after_results
  exact Cert.LibCastBcast.row_cast_eq_bcast (X (Proc.devRef .tc main_arg4)) _ _

/-- The second layer's propagation of whatever the third call left. -/
theorem propagate64 (X : Valuation τ sig (Elt F)) (x1 : (⟨Cert.ReferenceIdeal.S2x800000, .i32⟩ : BufTy).Contents (Elt F))
    (x2 : (⟨Cert.ReferenceIdeal.S800000, .f32⟩ : BufTy).Contents (Elt F))
    (hs : X (Proc.devRef .tc main_v3) = val_main_v3 (F := F) x1)
    (ht : X (Proc.devRef .tc main_v6) = val_main_v6 (F := F) x1)
    (hn : X (Proc.devRef .tc main_v31) = val_main_v31 (F := F) x1 x2) :
    StableHlo.after hostOps3 X (Proc.devRef .tc main_v61) = layer64 (F := F) x1 x2 (X (Proc.devRef .tc main_v48)) := by
  simp only [hostOps3]
  after_results_simp
  rw [hs, ht, hn]
  rfl

/-- The second bias as a one-row matrix. -/
theorem bias_row64 (X : Valuation τ sig (Elt F)) :
    StableHlo.after hostOps3 X (Proc.devRef .tc main_v62) = val_main_v64 (F := F) (X (Proc.devRef .tc main_arg6)) := by
  simp only [hostOps3]
  after_results
  exact Cert.LibCastBcast.row_cast_eq_bcast (X (Proc.devRef .tc main_arg6)) _ _

end Cert.KernelIdeal.HostChain

end
-- ==== Proof.Region0.lean ====
/-
  The first matrix-product call: its output array, after the call, is the product of the 50000 × 128 feature matrix
  and the 128 × 128 weight matrix.

  The call walks a grid of ten points. At point t it reads rows 5000·t … 5000·t + 4999 of the left matrix (all 128
  columns), the whole 128 × 128 right matrix, multiplies the two blocks into a zero accumulator, and writes the result
  back as the same rows of the output. Over the extended reals the narrowing of both blocks to bf16 before the product is the
  identity, so the block written at point t is block t of the product of the two whole matrices; the ten row
  blocks tile the 50000 × 128 output, so the output array ends as that product.
-/
import proofs.«121211_j64527588655436_1_alg».proof.Proof.Gen.KernelIdeal.Frame
import proofs.«121211_j64527588655436_1_alg».proof.Proof.Spec
import proofs.«121211_j64527588655436_1_alg».proof.Proof.LibDot
import Idealize.ShloMosaic.Lib.Pipeline.Value

set_option maxRecDepth 16384

noncomputable section

namespace Cert.KernelIdeal.RegionValue
open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

namespace Product0

/-- The body's loads and its store start at row 0, column 0 of their blocks. -/
theorem zeroOffsets : (![0, 0] : Fin 2 → Nat) = fun _ => 0 := funext fun a => by fin_cases a <;> rfl

/-- The body's value at entry (r, q) of its output block: the sum over k of x(r, k) · w(k, q) of the two loaded blocks
    (the narrowing to bf16 is the identity on extended reals; the accumulator starts at zero). -/
theorem product_block_at (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  exact Cert.LibDot.matmul_zero_at dot_S5000x128_S128x128_S5000x128_1_0_0_1_n_n rfl rfl rfl rfl rfl rfl none _ _ r q

/-- The block indices of the three windows at grid point t: the left operand's and the output's row block is t, every
    column block is 0, and the right operand's block is always block (0, 0). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two whole matrices: entry (r, q) of the block is entry
    (5000·t + r, q) of the product, because the left block's row r is row 5000·t + r of the left matrix and the right
    block is the whole right matrix. -/
theorem flushed_eq (c : Dev nD) (t : Fin cfg0.N) :
    (dat0 V c).flushed 2 t = ((cfg0.win 2).blk t).view.read (Elt Ideal) (Cert.Spec.matProd (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := block_indices t
  funext j
  show k0_pay1 (iblk0 V c 0 t) (iblk0 V c 1 t) j = Cert.Spec.matProd (V c main_arg0) (V c main_arg3) (((cfg0.win 2).blk t).view.emb j)
  obtain ⟨r, q, rfl⟩ : ∃ (r : Fin 5000) (q : Fin 128), j = ix2 r q := ⟨j 0, j 1, eq_ix2 j⟩
  rw [product_block_at]
  unfold Cert.Spec.matProd
  refine Finset.sum_congr rfl fun k _ => ?_
  refine congrArg₂ (· * ·) ?_ ?_
  · -- the left block's entry (r, k) is the left matrix's entry (5000·t + r, k)
    show V c main_arg0 (((cfg0.win 0).blk t).view.emb (ix2 r k)) = V c main_arg0 _
    refine congrArg _ (Shape.idx_ext₂ ?_ ?_)
    · show win0_0.index t (0 : Fin 2) * 5000 + 1 * r.val = win0_2.index t (0 : Fin 2) * 5000 + 1 * r.val
      omega
    · show win0_0.index t (1 : Fin 2) * 128 + 1 * k.val = k.val
      omega
  · -- the right block's entry (k, q) is the right matrix's entry (k, q)
    show V c main_arg3 (((cfg0.win 1).blk t).view.emb (ix2 k q)) = V c main_arg3 _
    refine congrArg _ (Shape.idx_ext₂ ?_ ?_)
    · show win0_1.index t (0 : Fin 2) * 128 + 1 * k.val = k.val
      omega
    · show win0_1.index t (1 : Fin 2) * 128 + 1 * q.val = win0_2.index t (1 : Fin 2) * 128 + 1 * q.val
      omega

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten row blocks tile the output: row r lies in the block of point r / 5000, and every column lies in the one
    column block. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show _ < 10; omega
  obtain ⟨e0, e1, e2, e3, e4, e5⟩ := block_indices ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

end Product0

/-- The output array of the call ends as the product of the two whole matrices: every point writes back its block of
    that product, and the blocks cover the array. -/
theorem region0_value (c : Dev nD) : (dat0 V c).arrAt 2 cfg0.N = Cert.Spec.matProd (V c main_arg0) (V c main_arg3) :=
  (dat0 V c).arrAt_eq_of_cover 2 _ (fun t _ => Product0.flushed_eq V c t) Product0.covered

end Cert.KernelIdeal.RegionValue

end
-- ==== Proof.Region1.lean ====
/-
  The first bias region, read as one whole-array function. The region walks the 50000 × 128 matrix in ten blocks of 5000
  rows; on each block it adds the one-row bias to every row and takes the larger of each entry and zero. Block t of the
  matrix is rows 5000·t … 5000·t + 4999, the bias block is the whole one-row array at every point, and the output block is
  the same rows of the output array. So what point t writes back is block t of the function
  (r, q) ↦ max (a(r, q) + b(0, q)) 0, the ten blocks tile the output array, and the array ends holding that function.
-/
import proofs.«121211_j64527588655436_1_alg».proof.Proof.Gen.KernelIdeal.Frame
import proofs.«121211_j64527588655436_1_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace RowBiasClamp

/-- The offsets of an access to a whole block are zero on both axes. -/
theorem zero_offsets : (![0, 0] : Fin 2 → Nat) = fun _ => 0 := funext fun a => by fin_cases a <;> rfl

/-- THE BODY AT ONE ENTRY: at row r, column q of a block, the body's result is the larger of x0(r, q) + x1(0, q) and
    zero. The two shape casts are to the operand's own shape, the broadcast of the one-row block reads its row 0 at the
    same column, and the splat of the zero word reads zero everywhere. -/
theorem bias_clamp_at (x0 : Vec Ideal S5000x128 .f32) (x1 : Vec Ideal S1x128 .f32) (r : Fin 5000) (q : Fin 128) :
    k1_pay1 x0 x1 (ix2 r q) = max (x0 (ix2 r q) + x1 (ix2 0 q)) (Ideal.ofBits .f32 0x00000000#32) := by
  unfold k1_pay1
  rw [maximumf_apply, addf_apply, broadcast_apply, shapeCast_self, shapeCast_self,
    broadcastTo_apply x1 broadcasts_S1x128_S5000x128 (ix2 r q) (ix2 0 q) (fun a => by
      match a with
      | ⟨0, _⟩ => rfl
      | ⟨1, _⟩ => rfl)]
  rfl

/-- The block indices over the ten grid points: the matrix and the output are at block (t, 0), the bias at block
    (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of block t is a row of the 50000-row array. -/
theorem row_lt (t : Fin cfg1.N) (r : Fin 5000) : t.val * 5000 + r.val < 50000 := by
  have ht : t.val < 10 := t.isLt
  omega

/-- Entry (r, q) of the matrix's block t is entry (5000·t + r, q) of the matrix. -/
theorem matrix_block_at (c : Dev nD) (t : Fin cfg1.N) (r : Fin 5000) (q : Fin 128) :
    iblk1 V c 0 t (ix2 r q) = V c main_v45 (ix2 ⟨t.val * 5000 + r.val, row_lt t r⟩ q) := by
  obtain ⟨e0, e1, -, -, -, -⟩ := block_indices t
  show V c main_v45 (((cfg1.win 0).blk t).view.emb (ix2 r q)) = _
  refine congrArg _ ?_
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- Entry (0, q) of the bias's block, at every point, is entry (0, q) of the bias. -/
theorem bias_block_at (c : Dev nD) (t : Fin cfg1.N) (q : Fin 128) :
    iblk1 V c 1 t (ix2 0 q) = V c main_v46 (ix2 0 q) := by
  obtain ⟨-, -, e2, e3, -, -⟩ := block_indices t
  show V c main_v46 (((cfg1.win 1).blk t).view.emb (ix2 0 q)) = _
  refine congrArg _ ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Entry (r, q) of the output's block t sits at entry (5000·t + r, q) of the output array. -/
theorem output_block_at (t : Fin cfg1.N) (r : Fin 5000) (q : Fin 128) :
    ((cfg1.win 2).blk t).view.emb (ix2 r q) = ix2 (⟨t.val * 5000 + r.val, row_lt t r⟩ : Fin 50000) q := by
  obtain ⟨-, -, -, -, e4, e5⟩ := block_indices t
  funext a; apply Fin.ext
  match a with
  | ⟨0, _⟩ => show win1_2.index t (0 : Fin 2) * 5000 + 1 * r.val = t.val * 5000 + r.val; omega
  | ⟨1, _⟩ => show win1_2.index t (1 : Fin 2) * 128 + 1 * q.val = q.val; omega

/-- WHAT POINT t WRITES BACK is block t of the bias-and-clamp of the matrix and the bias as the region finds them. -/
theorem flushed_block (c : Dev nD) (t : Fin cfg1.N) :
    (dat1 V c).flushed 2 t
      = ((cfg1.win 2).blk t).view.read (Elt Ideal) (Cert.Spec.addRowClamp (V c main_v45) (V c main_v46)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨r, q, rfl⟩ : ∃ (r : Fin 5000) (q : Fin 128), j = ix2 r q := ⟨j 0, j 1, eq_ix2 j⟩
  show k1_pay1 (iblk1 V c 0 t) (iblk1 V c 1 t) (ix2 r q)
    = Cert.Spec.addRowClamp (V c main_v45) (V c main_v46) (((cfg1.win 2).blk t).view.emb (ix2 r q))
  refine (bias_clamp_at (iblk1 V c 0 t) (iblk1 V c 1 t) r q).trans ?_
  rw [matrix_block_at V c t r q, bias_block_at V c t q, output_block_at t r q, Cert.Spec.addRowClamp_at]

/-- An index of the output array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- THE TEN BLOCKS TILE THE ARRAY: row r lies in the block of point r / 5000, and every point writes back. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by show _ < 10; omega⟩, rfl⟩
  obtain ⟨-, -, -, -, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end RowBiasClamp

/-- THE OUTPUT ARRAY AFTER THE REGION: the bias added to every row of the matrix, each entry then the larger of itself
    and zero. -/
theorem region1_value (c : Dev nD) :
    (dat1 V c).arrAt 2 cfg1.N = Cert.Spec.addRowClamp (V c main_v45) (V c main_v46) :=
  (dat1 V c).arrAt_eq_of_cover 2 _ (fun t _ => RowBiasClamp.flushed_block V c t) RowBiasClamp.covered

end Cert.KernelIdeal.RegionValue

end
-- ==== Proof.Region3.lean ====
/-
  The second bias region, read as one whole-array function. The region walks the 50000 × 64 matrix in ten blocks of 5000
  rows; on each block it adds the one-row bias to every row. Block t of the matrix is rows 5000·t … 5000·t + 4999, the
  bias block is the whole one-row array at every point, and the output block is the same rows of the output array. So what
  point t writes back is block t of the function (r, q) ↦ a(r, q) + b(0, q), the ten blocks tile the output array, and the
  array ends holding that function.
-/
import proofs.«121211_j64527588655436_1_alg».proof.Proof.Gen.KernelIdeal.Frame
import proofs.«121211_j64527588655436_1_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace RowBias

/-- The offsets of an access to a whole block are zero on both axes. -/
theorem zero_offsets : (![0, 0] : Fin 2 → Nat) = fun _ => 0 := funext fun a => by fin_cases a <;> rfl

/-- THE BODY AT ONE ENTRY: at row r, column q of a block, the body's result is x0(r, q) + x1(0, q). The two shape casts
    are to the operand's own shape, and the broadcast of the one-row block reads its row 0 at the same column. -/
theorem bias_at (x0 : Vec Ideal S5000x64 .f32) (x1 : Vec Ideal S1x64 .f32) (r : Fin 5000) (q : Fin 64) :
    k3_pay1 x0 x1 (ix2 r q) = x0 (ix2 r q) + x1 (ix2 0 q) := by
  unfold k3_pay1
  rw [addf_apply, shapeCast_self, shapeCast_self,
    broadcastTo_apply x1 broadcasts_S1x64_S5000x64 (ix2 r q) (ix2 0 q) (fun a => by
      match a with
      | ⟨0, _⟩ => rfl
      | ⟨1, _⟩ => rfl)]

/-- The block indices over the ten grid points: the matrix and the output are at block (t, 0), the bias at block
    (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of block t is a row of the 50000-row array. -/
theorem row_lt (t : Fin cfg3.N) (r : Fin 5000) : t.val * 5000 + r.val < 50000 := by
  have ht : t.val < 10 := t.isLt
  omega

/-- Entry (r, q) of the matrix's block t is entry (5000·t + r, q) of the matrix. -/
theorem matrix_block_at (c : Dev nD) (t : Fin cfg3.N) (r : Fin 5000) (q : Fin 64) :
    iblk3 V c 0 t (ix2 r q) = V c main_v61 (ix2 ⟨t.val * 5000 + r.val, row_lt t r⟩ q) := by
  obtain ⟨e0, e1, -, -, -, -⟩ := block_indices t
  show V c main_v61 (((cfg3.win 0).blk t).view.emb (ix2 r q)) = _
  refine congrArg _ ?_
  funext a; apply Fin.ext
  match a with
  | ⟨0, _⟩ => show win3_0.index t (0 : Fin 2) * 5000 + 1 * r.val = t.val * 5000 + r.val; omega
  | ⟨1, _⟩ => show win3_0.index t (1 : Fin 2) * 64 + 1 * q.val = q.val; omega

/-- Entry (0, q) of the bias's block, at every point, is entry (0, q) of the bias. -/
theorem bias_block_at (c : Dev nD) (t : Fin cfg3.N) (q : Fin 64) :
    iblk3 V c 1 t (ix2 0 q) = V c main_v62 (ix2 0 q) := by
  obtain ⟨-, -, e2, e3, -, -⟩ := block_indices t
  show V c main_v62 (((cfg3.win 1).blk t).view.emb (ix2 0 q)) = _
  refine congrArg _ ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- Entry (r, q) of the output's block t sits at entry (5000·t + r, q) of the output array. -/
theorem output_block_at (t : Fin cfg3.N) (r : Fin 5000) (q : Fin 64) :
    ((cfg3.win 2).blk t).view.emb (ix2 r q) = ix2 (⟨t.val * 5000 + r.val, row_lt t r⟩ : Fin 50000) q := by
  obtain ⟨-, -, -, -, e4, e5⟩ := block_indices t
  funext a; apply Fin.ext
  match a with
  | ⟨0, _⟩ => show win3_2.index t (0 : Fin 2) * 5000 + 1 * r.val = t.val * 5000 + r.val; omega
  | ⟨1, _⟩ => show win3_2.index t (1 : Fin 2) * 64 + 1 * q.val = q.val; omega

/-- WHAT POINT t WRITES BACK is block t of the matrix with the bias added to every row, as the region finds them. -/
theorem flushed_block (c : Dev nD) (t : Fin cfg3.N) :
    (dat3 V c).flushed 2 t
      = ((cfg3.win 2).blk t).view.read (Elt Ideal) (Cert.Spec.addRow (V c main_v61) (V c main_v62)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  funext j
  obtain ⟨r, q, rfl⟩ : ∃ (r : Fin 5000) (q : Fin 64), j = ix2 r q := ⟨j 0, j 1, eq_ix2 j⟩
  show k3_pay1 (iblk3 V c 0 t) (iblk3 V c 1 t) (ix2 r q)
    = Cert.Spec.addRow (V c main_v61) (V c main_v62) (((cfg3.win 2).blk t).view.emb (ix2 r q))
  refine (bias_at (iblk3 V c 0 t) (iblk3 V c 1 t) r q).trans ?_
  rw [matrix_block_at V c t r q, bias_block_at V c t q, output_block_at t r q, Cert.Spec.addRow_at]

/-- An index of the output array is in point t's block iff each coordinate is in the block's range on its axis. -/
theorem mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- THE TEN BLOCKS TILE THE ARRAY: row r lies in the block of point r / 5000, and every point writes back. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 := ⟨⟨(i 0).val / 5000, by show _ < 10; omega⟩, rfl⟩
  obtain ⟨-, -, -, -, e4, e5⟩ := block_indices t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

end RowBias

/-- THE OUTPUT ARRAY AFTER THE REGION: the bias added to every row of the matrix. -/
theorem region3_value (c : Dev nD) :
    (dat3 V c).arrAt 2 cfg3.N = Cert.Spec.addRow (V c main_v61) (V c main_v62) :=
  (dat3 V c).arrAt_eq_of_cover 2 _ (fun t _ => RowBias.flushed_block V c t) RowBias.covered

end Cert.KernelIdeal.RegionValue

end
-- ==== Proof.KernelValue.lean ====
/-
  The kernel's result as one term of the argument arrays. Walking the program from the launch: the first three stretches
  leave the extended edge list and the edge normalisation; the first call leaves x · W1; the next stretch propagates it over
  the graph; the second call adds b1 and clamps at zero; the third multiplies by W2; the next stretch propagates again; the
  last call adds b2. Every buffer a call or a stretch does not write is carried across it unchanged.
-/
import proofs.«121211_j64527588655436_1_alg».proof.Proof.Gen.KernelIdeal.Frame
import proofs.«121211_j64527588655436_1_alg».proof.Proof.HostChain
import proofs.«121211_j64527588655436_1_alg».proof.Proof.Region0
import proofs.«121211_j64527588655436_1_alg».proof.Proof.Region1
import proofs.«121211_j64527588655436_1_alg».proof.Proof.Region2
import proofs.«121211_j64527588655436_1_alg».proof.Proof.Region3

set_option maxRecDepth 16384

noncomputable section

namespace Cert.KernelIdeal.ResultValue

open Cert.KernelIdeal Cert.KernelIdeal.Gen Cert.KernelIdeal.HostChain Cert.KernelIdeal.RegionValue
open Idealize.ShloMosaic Idealize.ShloMosaic.TcCoe Idealize.SL.Sem Idealize.ShloMosaic.StableHlo
open Cert.LibKeep
open Cert.ReferenceIdeal.Read (val_main_v3 val_main_v6 val_main_v8 val_main_v13 val_main_v14 val_main_cst_2 val_main_v15
  val_main_v31 val_main_v46 val_main_v64)
open Cert.ReferenceIdeal.Layers (layer128 layer64)

variable {F : FTy → Type} [FloatOps F]
variable (m : (ℓ : Loc nD τ sig) → Buf (Elt F) ℓ) (ρ : Dev nD → PrngReg)

/-! ## What the first call finds -/

/-- A buffer none of the first three stretches writes holds its launch contents when the first call starts. -/
theorem entry_of_kept (c : Dev nD) (b : Ref sig .tc)
    (h0 : ∀ X : Valuation τ sig (Elt F), StableHlo.after hostOps0 X (Proc.devRef .tc b) = X (Proc.devRef .tc b))
    (h1 : ∀ X : Valuation τ sig (Elt F), StableHlo.after hostOps0_1 X (Proc.devRef .tc b) = X (Proc.devRef .tc b))
    (h2 : ∀ X : Valuation τ sig (Elt F), StableHlo.after hostOps0_2 X (Proc.devRef .tc b) = X (Proc.devRef .tc b)) :
    W3 m ρ c (Proc.devRef .tc b) = W0 m ρ c (Proc.devRef .tc b) :=
  (h2 _).trans ((h1 _).trans (h0 _))

theorem entry_arg0 (c : Dev nD) : W3 m ρ c (Proc.devRef .tc main_arg0) = m ((c : Thread nD τ).loc main_arg0) :=
  entry_of_kept m ρ c main_arg0 (fun X => by kept_host hostOps0) (fun X => by kept_host hostOps0_1) (fun X => by kept_host hostOps0_2)
theorem entry_arg3 (c : Dev nD) : W3 m ρ c (Proc.devRef .tc main_arg3) = m ((c : Thread nD τ).loc main_arg3) :=
  entry_of_kept m ρ c main_arg3 (fun X => by kept_host hostOps0) (fun X => by kept_host hostOps0_1) (fun X => by kept_host hostOps0_2)
theorem entry_arg4 (c : Dev nD) : W3 m ρ c (Proc.devRef .tc main_arg4) = m ((c : Thread nD τ).loc main_arg4) :=
  entry_of_kept m ρ c main_arg4 (fun X => by kept_host hostOps0) (fun X => by kept_host hostOps0_1) (fun X => by kept_host hostOps0_2)
theorem entry_arg5 (c : Dev nD) : W3 m ρ c (Proc.devRef .tc main_arg5) = m ((c : Thread nD τ).loc main_arg5) :=
  entry_of_kept m ρ c main_arg5 (fun X => by kept_host hostOps0) (fun X => by kept_host hostOps0_1) (fun X => by kept_host hostOps0_2)
theorem entry_arg6 (c : Dev nD) : W3 m ρ c (Proc.devRef .tc main_arg6) = m ((c : Thread nD τ).loc main_arg6) :=
  entry_of_kept m ρ c main_arg6 (fun X => by kept_host hostOps0) (fun X => by kept_host hostOps0_1) (fun X => by kept_host hostOps0_2)

/-- The extended sources, as the reference computes them from the edge list. -/
theorem entry_sources (c : Dev nD) :
    W3 m ρ c (Proc.devRef .tc main_v3) = val_main_v3 (F := F) (m ((c : Thread nD τ).loc main_arg1)) :=
  (show StableHlo.after hostOps0_2 (W2 m ρ c) (Proc.devRef .tc main_v3) = W2 m ρ c (Proc.devRef .tc main_v3) by kept_host hostOps0_2).trans
    ((show StableHlo.after hostOps0_1 (W1 m ρ c) (Proc.devRef .tc main_v3) = W1 m ρ c (Proc.devRef .tc main_v3) by kept_host hostOps0_1).trans
      (sources (W0 m ρ c)))

/-- The extended targets. -/
theorem entry_targets (c : Dev nD) :
    W3 m ρ c (Proc.devRef .tc main_v6) = val_main_v6 (F := F) (m ((c : Thread nD τ).loc main_arg1)) :=
  (show StableHlo.after hostOps0_2 (W2 m ρ c) (Proc.devRef .tc main_v6) = W2 m ρ c (Proc.devRef .tc main_v6) by kept_host hostOps0_2).trans
    ((show StableHlo.after hostOps0_1 (W1 m ρ c) (Proc.devRef .tc main_v6) = W1 m ρ c (Proc.devRef .tc main_v6) by kept_host hostOps0_1).trans
      (targets (W0 m ρ c)))

/-- Every edge's normalisation. -/
theorem entry_norm (c : Dev nD) :
    W3 m ρ c (Proc.devRef .tc main_v31)
      = val_main_v31 (F := F) (m ((c : Thread nD τ).loc main_arg1)) (m ((c : Thread nD τ).loc main_arg2)) :=
  edge_norm (W2 m ρ c) _ _
    (inv_sqrt_degree (W1 m ρ c) _ _ (degree_pos (W0 m ρ c)) (degree_rsqrt (W0 m ρ c)) (zero_fill (W0 m ρ c)))
    ((show StableHlo.after hostOps0_1 (W1 m ρ c) (Proc.devRef .tc main_v3) = W1 m ρ c (Proc.devRef .tc main_v3) by kept_host hostOps0_1).trans
      (sources (W0 m ρ c)))
    ((show StableHlo.after hostOps0_1 (W1 m ρ c) (Proc.devRef .tc main_v6) = W1 m ρ c (Proc.devRef .tc main_v6) by kept_host hostOps0_1).trans
      (targets (W0 m ρ c)))
    ((show StableHlo.after hostOps0_1 (W1 m ρ c) (Proc.devRef .tc main_v8) = W1 m ρ c (Proc.devRef .tc main_v8) by kept_host hostOps0_1).trans
      (weights (W0 m ρ c)))

/-! ## Carried across the calls and the stretches between them -/

/-- A buffer that is no array of the first call is the same after it. -/
theorem past_call0 (c : Dev nD) (b : Ref sig .tc) (h0 : ∀ w, Pipeline.arrRef spec0 w ≠ b) :
    W4 m ρ c (Proc.devRef .tc b) = W3 m ρ c (Proc.devRef .tc b) := W4_of_ne m ρ c b h0

/-- … nor written by the stretch after it, nor an array of the second call: the same when the third call starts. -/
theorem past_call1 (c : Dev nD) (b : Ref sig .tc) (h0 : ∀ w, Pipeline.arrRef spec0 w ≠ b)
    (hk : ∀ X : Valuation τ sig (Elt F), StableHlo.after hostOps1 X (Proc.devRef .tc b) = X (Proc.devRef .tc b))
    (h1 : ∀ w, Pipeline.arrRef spec1 w ≠ b) :
    W6 m ρ c (Proc.devRef .tc b) = W3 m ρ c (Proc.devRef .tc b) :=
  (W6_of_ne m ρ c b h1).trans ((hk _).trans (W4_of_ne m ρ c b h0))

/-- … nor an array of the third call: the same after it. -/
theorem past_call2 (c : Dev nD) (b : Ref sig .tc) (h0 : ∀ w, Pipeline.arrRef spec0 w ≠ b)
    (hk : ∀ X : Valuation τ sig (Elt F), StableHlo.after hostOps1 X (Proc.devRef .tc b) = X (Proc.devRef .tc b))
    (h1 : ∀ w, Pipeline.arrRef spec1 w ≠ b) (h2 : ∀ w, Pipeline.arrRef spec2 w ≠ b) :
    W7 m ρ c (Proc.devRef .tc b) = W3 m ρ c (Proc.devRef .tc b) :=
  (W7_of_ne m ρ c b h2).trans (past_call1 m ρ c b h0 hk h1)

/-! ## The result, call by call, over the extended reals -/

section Result

variable (m : (ℓ : Loc nD τ sig) → Buf (Elt Ideal) ℓ) (ρ : Dev nD → PrngReg)

/-- After the first call: x · W1. -/
theorem after_call0 (c : Dev nD) :
    W4 m ρ c (Proc.devRef .tc main_v32) = Cert.Spec.matProd (m ((c : Thread nD τ).loc main_arg0)) (m ((c : Thread nD τ).loc main_arg3)) :=
  (W4_arr m ρ c 2).trans ((region0_value (V3 m ρ) c).trans
    (congrArg₂ (Cert.Spec.matProd (R := 50000) (K := 128) (C := 128)) (entry_arg0 m ρ c) (entry_arg3 m ρ c)))

/-- When the second call starts: x · W1 propagated over the graph, -/
theorem before_call1_matrix (c : Dev nD) :
    W5 m ρ c (Proc.devRef .tc main_v45) = layer128 (m ((c : Thread nD τ).loc main_arg1)) (m ((c : Thread nD τ).loc main_arg2)) (Cert.Spec.matProd (m ((c : Thread nD τ).loc main_arg0)) (m ((c : Thread nD τ).loc main_arg3))) :=
  (propagate128 (W4 m ρ c) _ _
    ((past_call0 m ρ c main_v3 (by decide)).trans (entry_sources m ρ c))
    ((past_call0 m ρ c main_v6 (by decide)).trans (entry_targets m ρ c))
    ((past_call0 m ρ c main_v31 (by decide)).trans (entry_norm m ρ c))).trans
    (congrArg (layer128 (m ((c : Thread nD τ).loc main_arg1)) (m ((c : Thread nD τ).loc main_arg2))) (after_call0 m ρ c))

/-- and the first bias as a row. -/
theorem before_call1_bias (c : Dev nD) :
    W5 m ρ c (Proc.devRef .tc main_v46) = val_main_v46 (m ((c : Thread nD τ).loc main_arg4)) :=
  (bias_row128 (W4 m ρ c)).trans
    (congrArg (val_main_v46 (F := Ideal)) ((past_call0 m ρ c main_arg4 (by decide)).trans (entry_arg4 m ρ c)))

/-- After the second call: the bias added and the clamp at zero taken. -/
theorem after_call1 (c : Dev nD) :
    W6 m ρ c (Proc.devRef .tc main_v47) = Cert.Spec.addRowClamp (layer128 (m ((c : Thread nD τ).loc main_arg1)) (m ((c : Thread nD τ).loc main_arg2)) (Cert.Spec.matProd (m ((c : Thread nD τ).loc main_arg0)) (m ((c : Thread nD τ).loc main_arg3)))) (val_main_v46 (m ((c : Thread nD τ).loc main_arg4))) :=
  (W6_arr m ρ c 2).trans ((region1_value (V5 m ρ) c).trans
    (congrArg₂ (Cert.Spec.addRowClamp (R := 50000) (C := 128)) (before_call1_matrix m ρ c) (before_call1_bias m ρ c)))

/-- After the third call: times W2. -/
theorem after_call2 (c : Dev nD) :
    W7 m ρ c (Proc.devRef .tc main_v48) = Cert.Spec.matProd (Cert.Spec.addRowClamp (layer128 (m ((c : Thread nD τ).loc main_arg1)) (m ((c : Thread nD τ).loc main_arg2)) (Cert.Spec.matProd (m ((c : Thread nD τ).loc main_arg0)) (m ((c : Thread nD τ).loc main_arg3)))) (val_main_v46 (m ((c : Thread nD τ).loc main_arg4)))) (m ((c : Thread nD τ).loc main_arg5)) :=
  (W7_arr m ρ c 2).trans ((region2_value (V6 m ρ) c).trans
    (congrArg₂ (Cert.Spec.matProd (R := 50000) (K := 128) (C := 64)) (after_call1 m ρ c)
      ((past_call1 m ρ c main_arg5 (by decide) (fun X => by kept_host hostOps1) (by decide)).trans (entry_arg5 m ρ c))))

/-- When the last call starts: that propagated over the graph, -/
theorem before_call3_matrix (c : Dev nD) :
    W8 m ρ c (Proc.devRef .tc main_v61) = layer64 (m ((c : Thread nD τ).loc main_arg1)) (m ((c : Thread nD τ).loc main_arg2)) (Cert.Spec.matProd (Cert.Spec.addRowClamp (layer128 (m ((c : Thread nD τ).loc main_arg1)) (m ((c : Thread nD τ).loc main_arg2)) (Cert.Spec.matProd (m ((c : Thread nD τ).loc main_arg0)) (m ((c : Thread nD τ).loc main_arg3)))) (val_main_v46 (m ((c : Thread nD τ).loc main_arg4)))) (m ((c : Thread nD τ).loc main_arg5))) :=
  (propagate64 (W7 m ρ c) _ _
    ((past_call2 m ρ c main_v3 (by decide) (fun X => by kept_host hostOps1) (by decide) (by decide)).trans (entry_sources m ρ c))
    ((past_call2 m ρ c main_v6 (by decide) (fun X => by kept_host hostOps1) (by decide) (by decide)).trans (entry_targets m ρ c))
    ((past_call2 m ρ c main_v31 (by decide) (fun X => by kept_host hostOps1) (by decide) (by decide)).trans (entry_norm m ρ c))).trans
    (congrArg (layer64 (m ((c : Thread nD τ).loc main_arg1)) (m ((c : Thread nD τ).loc main_arg2))) (after_call2 m ρ c))

/-- and the second bias as a row. -/
theorem before_call3_bias (c : Dev nD) :
    W8 m ρ c (Proc.devRef .tc main_v62) = val_main_v64 (m ((c : Thread nD τ).loc main_arg6)) :=
  (bias_row64 (W7 m ρ c)).trans
    (congrArg (val_main_v64 (F := Ideal)) ((past_call2 m ρ c main_arg6 (by decide) (fun X => by kept_host hostOps1) (by decide) (by decide)).trans (entry_arg6 m ρ c)))

/-- THE RESULT: the second layer's output plus the second bias. -/
theorem result (c : Dev nD) :
    W9 m ρ c (Proc.devRef .tc main_v63) = Cert.Spec.addRow (layer64 (m ((c : Thread nD τ).loc main_arg1)) (m ((c : Thread nD τ).loc main_arg2)) (Cert.Spec.matProd (Cert.Spec.addRowClamp (layer128 (m ((c : Thread nD τ).loc main_arg1)) (m ((c : Thread nD τ).loc main_arg2)) (Cert.Spec.matProd (m ((c : Thread nD τ).loc main_arg0)) (m ((c : Thread nD τ).loc main_arg3)))) (val_main_v46 (m ((c : Thread nD τ).loc main_arg4)))) (m ((c : Thread nD τ).loc main_arg5)))) (val_main_v64 (m ((c : Thread nD τ).loc main_arg6))) :=
  (W9_arr m ρ c 2).trans ((region3_value (V8 m ρ) c).trans
    (congrArg₂ (Cert.Spec.addRow (R := 50000) (C := 64)) (before_call3_matrix m ρ c) (before_call3_bias m ρ c)))

end Result

end Cert.KernelIdeal.ResultValue

end
-- ==== Proof.lean ====
/-
  A two-layer graph convolution: with the edge list extended by one self loop per node and `norm` the symmetric
  degree normalisation of the extended edges, a layer sends a feature matrix `h` to the scatter-add, over the edges'
  targets, of `norm(e) · h[source(e)]`, and the network is `layer(relu(layer(x · W1) + b1) · W2) + b2`.

  The kernel's program computes the normalisation, the gathers and the scatter-adds with the very host operations the
  reference uses, and its four grid-tiled calls compute the four dense steps, ten row blocks of 5000 rows each: x · W1 and
  (·) · W2 as products of a row block with the whole weight matrix (both operands first cast to bf16, which is the identity
  on extended reals, the accumulator zero), and the two bias steps as the bias row added to every row of the block (then,
  in the first layer, the larger of that and zero). A row block of a matrix product is the product of the row block, and a
  row block of a row-wise bias step is the bias step of the row block, so each call leaves in its output array the
  whole-array function of its operands (Region0 … Region3, over Spec's `matProd`, `addRow`, `addRowClamp`); the host
  operations between the calls are the reference's own stages from whatever the calls left (HostChain); and the reference's
  two products and two bias steps are the same whole-array functions entry by entry (RefLayers): a product is the sum over
  the shared axis of x(r, k) · w(k, c) on both sides, the bias row reshaped to one row is its broadcast to one row. No law
  of the extended reals beyond these equalities of terms is used, so the inputs' finiteness is never opened.

  The three frames are the generated ones (the reference's is its generated run with the result dropped); the idealization
  rewrote nothing, so `preserves` is trivial; `algebraic` puts the kernel's run with its result array named (KernelRun,
  KernelValue) beside the reference's generated run.
-/
import proofs.«121211_j64527588655436_1_alg».proof.Defs
import proofs.«121211_j64527588655436_1_alg».proof.Proof.Gen.Kernel
import proofs.«121211_j64527588655436_1_alg».proof.Proof.Gen.Kernel.Skeleton
import proofs.«121211_j64527588655436_1_alg».proof.Proof.Gen.Kernel.Launch
import proofs.«121211_j64527588655436_1_alg».proof.Proof.Gen.Kernel.Points
import proofs.«121211_j64527588655436_1_alg».proof.Proof.Gen.Kernel.Frame
import proofs.«121211_j64527588655436_1_alg».proof.Proof.Gen.KernelIdeal
import proofs.«121211_j64527588655436_1_alg».proof.Proof.Gen.KernelIdeal.Skeleton
import proofs.«121211_j64527588655436_1_alg».proof.Proof.Gen.KernelIdeal.Launch
import proofs.«121211_j64527588655436_1_alg».proof.Proof.Gen.KernelIdeal.Points
import proofs.«121211_j64527588655436_1_alg».proof.Proof.Gen.KernelIdeal.Frame
import proofs.«121211_j64527588655436_1_alg».proof.Proof.Gen.ReferenceIdeal
import proofs.«121211_j64527588655436_1_alg».proof.Proof.Gen.Pre_finite_inputs
import proofs.«121211_j64527588655436_1_alg».proof.Proof.Gen.ReferenceIdeal.Run
import proofs.«121211_j64527588655436_1_alg».proof.Proof.Gen.ReferenceIdeal.Read
import proofs.«121211_j64527588655436_1_alg».proof.Proof.KernelRun
import proofs.«121211_j64527588655436_1_alg».proof.Proof.KernelValue
import proofs.«121211_j64527588655436_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array (the last call's output, read back through the
    program) and the reference's result are one term of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.Layers.result_spec,
    (hagree c).1, (hagree c).2.1, (hagree c).2.2.1, (hagree c).2.2.2.1, (hagree c).2.2.2.2.1, (hagree c).2.2.2.2.2.1,
    (hagree c).2.2.2.2.2.2]
  exact (Cert.KernelIdeal.ResultValue.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
